-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4 : Shape := ⟨2, ![1024, 4]⟩
abbrev S8192x32768 : Shape := ⟨2, ![8192, 32768]⟩
abbrev S8192 : Shape := ⟨1, ![8192]⟩
abbrev S_ : Shape := ⟨0, ![]⟩

class Facts : Prop where
  bcast_S_S8192x32768 : S_.BroadcastsInDim S8192x32768 (![] : Fin 0 → Fin S8192x32768.rank)
  reducesTo_S8192x32768_S_d0_1 : S8192x32768.ReducesTo [0, 1] S_
  h_S_ : 0 < S_.numel
  bcast_S_S8192 : S_.BroadcastsInDim S8192 (![] : Fin 0 → Fin S8192.rank)
  reducesTo_S8192_S_d0 : S8192.ReducesTo [0] S_
  bcast_S_S1024x4 : S_.BroadcastsInDim S1024x4 (![] : Fin 0 → Fin S1024x4.rank)
  reducesTo_S1024x4_S_d0_1 : S1024x4.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S1024x4 32) (main_arg1 : FVec F S8192x32768 .f32) (main_arg2 : FVec F S8192 .f32) : IVec S_ 1 :=
  let main_v0 : FVec F S8192x32768 .f32 := Host.absf main_arg1
  let main_cst : FVec F S_ .f32 := constant S_ .f32 0x7F800000#32
  let main_v1 : FVec F S8192x32768 .f32 := broadcastInDim S8192x32768 ![] bcast_S_S8192x32768 main_cst
  let main_v2 : IVec S8192x32768 1 := cmpf .olt main_v0 main_v1
  let main_c : IVec S_ 1 := constantI S_ 1 1#1
  let main_v3 : IVec S_ 1 := (fun x v => Host.reduce IntOp.andi x v reducesTo_S8192x32768_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_c_2 : IVec S_ 32 := constantI S_ 32 0#32
  let main_v9 : IVec S1024x4 32 := broadcastInDim S1024x4 ![] bcast_S_S1024x4 main_c_2
  let main_v10 : IVec S1024x4 1 := cmpi .sge main_arg0 main_v9
  let main_c_3 : IVec S_ 1 := constantI S_ 1 1#1
  let main_v11 : IVec S_ 1 := (fun x v => Host.reduce IntOp.andi x v reducesTo_S1024x4_S_d0_1 h_S_) main_v10 main_c_3
  let main_v12 : IVec S_ 1 := andi main_v8 main_v11
  let main_c_4 : IVec S_ 32 := constantI S_ 32 8192#32
  let main_v13 : IVec S1024x4 32 := broadcastInDim S1024x4 ![] bcast_S_S1024x4 main_c_4
  let main_v14 : IVec S1024x4 1 := cmpi .slt main_arg0 main_v13
  let main_c_5 : IVec S_ 1 := constantI S_ 1 1#1
  let main_v15 : IVec S_ 1 := (fun x v => Host.reduce IntOp.andi x v reducesTo_S1024x4_S_d0_1 h_S_) main_v14 main_c_5
  fn_part1 (F := F) main_v12 main_v15
-- ==== Kernel.lean ====
abbrev S1024x4 : Shape := ⟨2, ![1024, 4]⟩
abbrev S8192x32768 : Shape := ⟨2, ![8192, 32768]⟩
abbrev S8192 : Shape := ⟨1, ![8192]⟩
abbrev S4x1024 : Shape := ⟨2, ![4, 1024]⟩
abbrev S1024x8192 : Shape := ⟨2, ![1024, 8192]⟩
abbrev S2048x512 : Shape := ⟨2, ![2048, 512]⟩
abbrev S2048 : Shape := ⟨1, ![2048]⟩
abbrev S1024x2048 : Shape := ⟨2, ![1024, 2048]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S1x2048 : Shape := ⟨2, ![1, 2048]⟩

abbrev nBuf : Space → Nat
  | .hbm => 5
  | .vmem => 8
  | .smem => 0
  | _ => 0

abbrev bufTy : (tb : Table) → Fin (tcTables nBuf tb) → BufTy
  | .hbm, ⟨0, _⟩ => ⟨S1024x4, .i32⟩
  | .hbm, ⟨1, _⟩ => ⟨S8192x32768, .f32⟩
  | .hbm, ⟨2, _⟩ => ⟨S8192, .f32⟩
  | .hbm, ⟨3, _⟩ => ⟨S4x1024, .i32⟩
  | .hbm, ⟨4, _⟩ => ⟨S1024x8192, .f32⟩
  | .local _ .vmem, ⟨0, _⟩ => ⟨S4x1024, .i32⟩
  | .local _ .vmem, ⟨1, _⟩ => ⟨S2048x512, .f32⟩
  | .local _ .vmem, ⟨2, _⟩ => ⟨S2048x512, .f32⟩
  | .local _ .vmem, ⟨3, _⟩ => ⟨S2048, .f32⟩
  | .local _ .vmem, ⟨4, _⟩ => ⟨S2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S1024x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 2 → Nat :=
  let arg1 : BitVec 32 := BitVec.ofNat 32 (i 1).val
  let v8 : Index := Scalar.indexCast arg1
  let c0 : Index := 0#32
  ![v8.toNat, 0]
def k0_cond2 (i : grid0.Coords) : BitVec 1 :=
  let arg1 : BitVec 32 := BitVec.ofNat 32 (i 1).val
  let c3_i32 : BitVec 32 := 3#32
  let v3 : BitVec 1 := Scalar.cmpi .eq arg1 c3_i32
  let arg2 : BitVec 32 := BitVec.ofNat 32 (i 2).val
  let c15_i32 : BitVec 32 := 15#32
  let v4 : BitVec 1 := Scalar.cmpi .eq arg2 c15_i32
  let v5 : BitVec 1 := Scalar.andi v3 v4
  let v38 : BitVec 32 := Scalar.extui v5
  let c0_i32_13 : BitVec 32 := 0#32
  let v39 : BitVec 1 := Scalar.cmpi .ne v38 c0_i32_13
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![arg0.toNat, v1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 1 → Memref sig .tc .vmem S4x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S1024x4_S4x1024_1_0 : S1024x4.Transposes [1, 0] S4x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  h_S1x1024 : 0 < S1x1024.numel
  shapeCasts_S1x1024_S1024 : S1x1024.ShapeCasts S1024
  shapeCasts_S1024_S1024x1 : S1024.ShapeCasts S1024x1
  iota_S1024x512_d1_w32 : S1024x512.Iotas .tc 32 [1]
  broadcasts_S1024x1_S1024x512 : S1024x1.Broadcasts S1024x512
  natLt_1_32 : 1 < 32
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  dot_S1024x512_S2048x512_S1024x2048_1_1_0_0_n_n_wf : DotDims.WF S1024x512 S2048x512 S1024x2048 [1] [1] [0] [0] [] []
  hrank0 : 0 < grid0.rank
  k0_off1_inb : ∀ i : grid0.Coords, ∀ a, (k0_off1 i) a + S1x1024.size a ≤ S4x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x1024.size a ≤ S4x1024.size a
  hwx0_0 : ∀ i : grid0.Coords, EltTy.bits .i32 = 32 ∨ (Rect.block (s := S4x1024) S4x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x32768.size a
  hwx0_1 : ∀ i : grid0.Coords, EltTy.bits .f32 = 32 ∨ (Rect.block (s := S8192x32768) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S8192.size a
  hwx0_2 : ∀ i : grid0.Coords, EltTy.bits .f32 = 32 ∨ (Rect.block (s := S8192) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x8192.size a
  hwx0_3 : ∀ i : grid0.Coords, EltTy.bits .f32 = 32 ∨ (Rect.block (s := S1024x8192) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S4x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x4 : Shape := ⟨2, ![1024, 4]⟩
abbrev S8192x32768 : Shape := ⟨2, ![8192, 32768]⟩
abbrev S8192 : Shape := ⟨1, ![8192]⟩
abbrev S8192x4x8192 : Shape := ⟨3, ![8192, 4, 8192]⟩
abbrev S4x8192x8192 : Shape := ⟨3, ![4, 8192, 8192]⟩
abbrev S4 : Shape := ⟨1, ![4]⟩
abbrev S1x4 : Shape := ⟨2, ![1, 4]⟩
abbrev S_ : Shape := ⟨0, ![]⟩
abbrev S1024x4x1 : Shape := ⟨3, ![1024, 4, 1]⟩
abbrev S1024x4x2 : Shape := ⟨3, ![1024, 4, 2]⟩
abbrev S1024x4x8192 : Shape := ⟨3, ![1024, 4, 8192]⟩
abbrev S1024x8192 : Shape := ⟨2, ![1024, 8192]⟩
abbrev S1x8192 : Shape := ⟨2, ![1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S1024x4, .i32⟩
  | .hbm, ⟨1, _⟩ => ⟨S8192x32768, .f32⟩
  | .hbm, ⟨2, _⟩ => ⟨S8192, .f32⟩
  | .hbm, ⟨3, _⟩ => ⟨S8192x4x8192, .f32⟩
  | .hbm, ⟨4, _⟩ => ⟨S4x8192x8192, .f32⟩
  | .hbm, ⟨5, _⟩ => ⟨S4, .i32⟩
  | .hbm, ⟨6, _⟩ => ⟨S1x4, .i32⟩
  | .hbm, ⟨7, _⟩ => ⟨S_, .i32⟩
  | .hbm, ⟨8, _⟩ => ⟨S1x4, .i32⟩
  | .hbm, ⟨9, _⟩ => ⟨S1x4, .i1⟩
  | .hbm, ⟨10, _⟩ => ⟨S_, .i32⟩
  | .hbm, ⟨11, _⟩ => ⟨S1x4, .i32⟩
  | .hbm, ⟨12, _⟩ => ⟨S1x4, .i32⟩
  | .hbm, ⟨13, _⟩ => ⟨S1x4, .i32⟩
  | .hbm, ⟨14, _⟩ => ⟨S_, .i32⟩
  | .hbm, ⟨15, _⟩ => ⟨S1024x4, .i32⟩
  | .hbm, ⟨16, _⟩ => ⟨S1024x4, .i1⟩
  | .hbm, ⟨17, _⟩ => ⟨S_, .i32⟩
  | .hbm, ⟨18, _⟩ => ⟨S1024x4, .i32⟩
  | .hbm, ⟨19, _⟩ => ⟨S1024x4, .i32⟩
  | .hbm, ⟨20, _⟩ => ⟨S1024x4, .i32⟩
  | .hbm, ⟨21, _⟩ => ⟨S1024x4, .i32⟩
  | .hbm, ⟨22, _⟩ => ⟨S1024x4x1, .i32⟩
  | .hbm, ⟨23, _⟩ => ⟨S1024x4x1, .i32⟩
  | .hbm, ⟨24, _⟩ => ⟨S1024x4x2, .i32⟩
  | .hbm, ⟨25, _⟩ => ⟨S1024x4x8192, .f32⟩
  | .hbm, ⟨26, _⟩ => ⟨S_, .f32⟩
  | .hbm, ⟨27, _⟩ => ⟨S1024x8192, .f32⟩
  | .hbm, ⟨28, _⟩ => ⟨S1x8192, .f32⟩
  | .hbm, ⟨29, _⟩ => ⟨S1024x8192, .f32⟩
  | .hbm, ⟨30, _⟩ => ⟨S1024x8192, .f32⟩
  | _, _ => ⟨S1024x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  shapeCasts_S8192x32768_S8192x4x8192 : S8192x32768.ShapeCasts S8192x4x8192
  transposes_S8192x4x8192_S4x8192x8192_1_2_0 : S8192x4x8192.Transposes [1, 2, 0] S4x8192x8192
  bcast_S4_S1x4_1 : S4.BroadcastsInDim S1x4 (![1] : Fin 1 → Fin S1x4.rank)
  bcast_S_S1x4 : S_.BroadcastsInDim S1x4 (![] : Fin 0 → Fin S1x4.rank)
  bcast_S_S1024x4 : S_.BroadcastsInDim S1024x4 (![] : Fin 0 → Fin S1024x4.rank)
  bcast_S1x4_S1024x4_0_1 : S1x4.BroadcastsInDim S1024x4 (![0, 1] : Fin 2 → Fin S1024x4.rank)
  bcast_S1024x4_S1024x4x1_0_1 : S1024x4.BroadcastsInDim S1024x4x1 (![0, 1] : Fin 2 → Fin S1024x4x1.rank)
  concatenates_S1024x4x1_S1024x4x1_S1024x4x2_d2 : Shape.Concatenates [S1024x4x1, S1024x4x1] S1024x4x2 2
  reducesTo_S1024x4x8192_S1024x8192_d1 : S1024x4x8192.ReducesTo [1] S1024x8192
  h_S_ : 0 < S_.numel
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  gather_S4x8192x8192_S1024x4x2_S1024x4x8192_2_01_n_n_01_2_118192_wf : GatherDims.WF S4x8192x8192 S1024x4x2 S1024x4x8192 [2] [0, 1] [] [0, 1] [] 2 ![1, 1, 8192]

variable [Facts₀]

def gather_S4x8192x8192_S1024x4x2_S1024x4x8192_2_01_n_n_01_2_118192 : GatherDims S4x8192x8192 S1024x4x2 S1024x4x8192 where
  offsetDims := [2]
  collapsedSliceDims := [0, 1]
  operandBatchingDims := []
  startIndicesBatchingDims := []
  startIndexMap := [0, 1]
  indexVectorDim := 2
  sliceSizes := ![1, 1, 8192]
  wf := gather_S4x8192x8192_S1024x4x2_S1024x4x8192_2_01_n_n_01_2_118192_wf

class Facts : Prop extends Facts₀ where

variable [Facts]
-- ==== Proof.KerPieces.lean ====
/-
  What each control case of the kernel body leaves behind, as one term of the point's inputs.

  The body keeps its accumulator in a scratch buffer that survives from one grid point to the next.
  Every case ends by storing the accumulator whole, so what a case leaves in the scratch is its LAST
  whole store; each earlier whole store is only read back by the load that follows it.  With
  `row` the context row the point loads and `x1` its weight block:
    first point of an output tile :  store( update₂( update₁( zero ) ) )
    a middle point                :  store( update₂( update₁( what the point before left ) ) )
    last point of an output tile  :  the same, and the output block is that accumulator plus the bias block.
-/
import proofs.«419701_j33122787787244_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Cert.KernelIdeal Cert.KernelIdeal.Gen

/-- A load of the whole buffer, after a list of stores whose LAST one stored the whole buffer, reads that
    last store's payload, whatever the earlier stores were. -/
theorem readCov_cons_whole {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩),
    View.canon_cons_unit_zero rfl, View.ld_unit_zero rfl]

theorem hz2 : (![0, 0] : Fin 2 → Nat) = fun _ => 0 := by funext a; fin_cases a <;> rfl
theorem hz1 : (![0] : Fin 1 → Nat) = fun _ => 0 := by funext a; fin_cases a; rfl

variable {F : FTy → Type} [FloatOps F]

/-- The row of the transposed context array that a point loads: row `i 1` (the slot), all 1024 batch entries. -/
def row (i : grid0.Coords) (x0 : Vec F S4x1024 .i32) : Vec F S1x1024 .i32 :=
  View.ld x0 (Rect.unit (s := S4x1024) (k0_off1 i) S1x1024.size (k0_off1_inb i))

/-- A point's whole update of the accumulator, from the context array, the weight block and what it found. -/
def upd (i : grid0.Coords) (x0 : Vec F S4x1024 .i32) (x1 : Vec F S2048x512 .f32) (acc : Vec F S1024x2048 .f32) :
    Vec F S1024x2048 .f32 :=
  k0_pay1 (k0_pay6 i (row i x0) x1 (k0_pay5 i (row i x0) x1 acc))

/-- First point of an output tile: the accumulator is reset, then updated. -/
theorem sout_A (c : Dev nD) (i : grid0.Coords) (arg3 : Memref sig .tc .vmem S4x1024 .i32) (harg3 : arg3.IsWhole) (arg4 : Memref sig .tc .vmem S2048x512 .f32) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S4x1024 .i32) (x1 : Vec F S2048x512 .f32) (x2 : Vec F S2048 .f32) :
    sout0_A_0 (F := F) c i arg3 harg3 arg4 harg4 arg5 harg5 arg6 harg6 arg7 harg7 hc0 hc1 x0 x1 x2 = upd i x0 x1 k0_pay3 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz2]
  simp only [View.readAt_eq_ld, harg3.read_unread, harg4.read_unread, View.ld_unit_zero (S := S2048x512) hz2,
    readCov_cons_whole (S := S1024x2048) _ hz2, View.readCov_unit_zero (S := S1024x2048) _ hz2]
  rfl

/-- A middle point: the accumulator the point before left, updated. -/
theorem sout_B (c : Dev nD) (i : grid0.Coords) (arg3 : Memref sig .tc .vmem S4x1024 .i32) (harg3 : arg3.IsWhole) (arg4 : Memref sig .tc .vmem S2048x512 .f32) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S4x1024 .i32) (x1 : Vec F S2048x512 .f32) (x2 : Vec F S2048 .f32) (xs0 : Vec F S1024x2048 .f32) :
    sout0_B_0 (F := F) c i arg3 harg3 arg4 harg4 arg5 harg5 arg6 harg6 arg7 harg7 hc0 hc1 x0 x1 x2 xs0 = upd i x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_cons_unit_zero (S := S1024x2048) hz2]
  simp only [View.readAt_eq_ld, harg3.read_unread, harg4.read_unread, harg7.read_unread, View.ld_unit_zero (S := S2048x512) hz2,
    View.ld_unit_zero (S := S1024x2048) hz2, readCov_cons_whole (S := S1024x2048) _ hz2, View.readCov_unit_zero (S := S1024x2048) _ hz2]
  rfl

/-- Last point of an output tile: the scratch as at a middle point … -/
theorem sout_C (c : Dev nD) (i : grid0.Coords) (arg3 : Memref sig .tc .vmem S4x1024 .i32) (harg3 : arg3.IsWhole) (arg4 : Memref sig .tc .vmem S2048x512 .f32) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S4x1024 .i32) (x1 : Vec F S2048x512 .f32) (x2 : Vec F S2048 .f32) (xs0 : Vec F S1024x2048 .f32) :
    sout0_C_0 (F := F) c i arg3 harg3 arg4 harg4 arg5 harg5 arg6 harg6 arg7 harg7 hc0 hc1 x0 x1 x2 xs0 = upd i x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_cons_unit_zero (S := S1024x2048) hz2]
  simp only [View.readAt_eq_ld, harg3.read_unread, harg4.read_unread, harg7.read_unread, View.ld_unit_zero (S := S2048x512) hz2,
    View.ld_unit_zero (S := S1024x2048) hz2, readCov_cons_whole (S := S1024x2048) _ hz2, View.readCov_unit_zero (S := S1024x2048) _ hz2]
  rfl

/-- … and the output block is that accumulator plus the bias block. -/
theorem out_C (c : Dev nD) (i : grid0.Coords) (arg3 : Memref sig .tc .vmem S4x1024 .i32) (harg3 : arg3.IsWhole) (arg4 : Memref sig .tc .vmem S2048x512 .f32) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S4x1024 .i32) (x1 : Vec F S2048x512 .f32) (x2 : Vec F S2048 .f32) (xs0 : Vec F S1024x2048 .f32) :
    out0_C_3 (F := F) c i arg3 harg3 arg4 harg4 arg5 harg5 arg6 harg6 arg7 harg7 hc0 hc1 x0 x1 x2 xs0 = k0_pay2 (upd i x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x2048) hz2]
  simp only [View.readAt_eq_ld, harg3.read_unread, harg4.read_unread, harg5.read_unread, harg7.read_unread,
    View.ld_unit_zero (S := S2048x512) hz2, View.ld_unit_zero (S := S1024x2048) hz2, View.ld_unit_zero (S := S2048) hz1,
    readCov_cons_whole (S := S1024x2048) _ hz2, View.readCov_unit_zero (S := S1024x2048) _ hz2]
  rfl

end Cert.KernelIdeal.Pieces

end
-- ==== Proof.KerBlocks.lean ====
/-
  Where each grid point's input blocks sit in the argument arrays.

  Point `t` of the 4 × 4 × 16 grid has output tile `t / 64`, slot `(t / 16) % 4` and chunk `t % 16`.
  Its weight block is rows `2048·(t/64) …` and columns `512·(t % 64) …` of the weight matrix (note
  `t % 64 = 16·slot + chunk`), its bias block the entries `2048·(t/64) …`, and the context array reaches
  the kernel whole and transposed, so the row the body loads is the slot's column of the contexts.
-/
import proofs.«419701_j33122787787244_2_alg».proof.Proof.Gen.KernelIdeal.Frame
import proofs.«419701_j33122787787244_2_alg».proof.Proof.KerPieces
import Idealize.ShloMosaic.Lib.StableHlo.Run
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-- The three argument arrays, at their literal types. -/
abbrev ctx (c : Dev nD) : IVec S1024x4 32 := m ((c : Thread nD τ).loc main_arg0)
abbrev Wt (c : Dev nD) : FVec Ideal S8192x32768 .f32 := m ((c : Thread nD τ).loc main_arg1)
abbrev Bs (c : Dev nD) : FVec Ideal S8192 .f32 := m ((c : Thread nD τ).loc main_arg2)

/-- The input blocks of a point, at their literal types. -/
abbrev blk0 (c : Dev nD) (t : Fin cfg0.N) : Vec Ideal S4x1024 .i32 := iblk m c 0 t
abbrev blk1 (c : Dev nD) (t : Fin cfg0.N) : Vec Ideal S2048x512 .f32 := iblk m c 1 t
abbrev blk2 (c : Dev nD) (t : Fin cfg0.N) : Vec Ideal S2048 .f32 := iblk m c 2 t

/-! ## The grid's coordinates and the windows' block indices, decided once -/

theorem coords_facts : ∀ t : Fin cfg0.N,
    ((grid0.coords t) 1).val = (t.val / 16) % 4 ∧ ((grid0.coords t) 2).val = t.val % 16 :=
  (by decide +kernel : ∀ t : Fin grid0.N, _)

theorem idx0_facts : ∀ t : Fin cfg0.N, win0_0.index t (0 : Fin 2) = 0 ∧ win0_0.index t (1 : Fin 2) = 0 :=
  (by decide +kernel : ∀ t : Fin grid0.N, _)

theorem idx1_facts : ∀ t : Fin cfg0.N, win0_1.index t (0 : Fin 2) = t.val / 64 ∧ win0_1.index t (1 : Fin 2) = t.val % 64 :=
  (by decide +kernel : ∀ t : Fin grid0.N, _)

theorem idx2_facts : ∀ t : Fin cfg0.N, win0_2.index t (0 : Fin 1) = t.val / 64 :=
  (by decide +kernel : ∀ t : Fin grid0.N, _)

theorem N_lt (t : Fin cfg0.N) : t.val < 256 := lt_of_lt_of_eq t.isLt (show cfg0.N = 256 from N_0)

/-! ## The context array as the kernel finds it: transposed -/

theorem V_v0_apply (c : Dev nD) (i : Fin 4) (b : Fin 1024) :
    (V m c main_v0 : S4x1024.Idx → BitVec 32) (ix2 i b) = ctx m c (ix2 b i) := by
  have e : (V m c main_v0 : S4x1024.Idx → BitVec 32)
      = transpose S4x1024 [1, 0] (ctx m c) transposes_S1024x4_S4x1024_1_0 := by
    dsimp only [Gen.V, Gen.hostOps0]; after_results
  rw [e]
  exact transpose_apply [1, 0] (ctx m c) transposes_S1024x4_S4x1024_1_0 (ix2 i b) (ix2 b i) (fun bb => by
    match bb with
    | ⟨0, _⟩ => rfl
    | ⟨1, _⟩ => rfl)

/-- Window 0's block is the whole transposed context array. -/
theorem blk0_apply (c : Dev nD) (t : Fin cfg0.N) (i : Fin 4) (b : Fin 1024) :
    blk0 m c t (ix2 i b) = ctx m c (ix2 b i) := by
  show V m c main_v0 (((cfg0.win 0).blk t).view.emb (ix2 i b)) = _
  rw [← V_v0_apply m c i b]
  refine congrArg (V m c main_v0) (funext fun a => Fin.ext ?_)
  match a with
  | ⟨0, _⟩ =>
    show win0_0.index t 0 * 4 + 1 * i.val = i.val
    rw [(idx0_facts t).1]; omega
  | ⟨1, _⟩ =>
    show win0_0.index t 1 * 1024 + 1 * b.val = b.val
    rw [(idx0_facts t).2]; omega

/-- The row the body loads is the slot's column of the context array. -/
theorem row_apply (c : Dev nD) (t : Fin cfg0.N) (b : Fin 1024) :
    Pieces.row (F := Ideal) (grid0.coords t) (blk0 m c t) (ix2 (0 : Fin 1) b)
      = ctx m c (ix2 b ⟨(t.val / 16) % 4, Nat.mod_lt _ (by norm_num)⟩) := by
  rw [← blk0_apply m c t ⟨(t.val / 16) % 4, Nat.mod_lt _ (by norm_num)⟩ b]
  unfold Pieces.row
  show blk0 m c t ((Rect.unit (s := S4x1024) (k0_off1 (grid0.coords t)) S1x1024.size (k0_off1_inb (grid0.coords t))).idx (ix2 (0 : Fin 1) b)) = _
  refine congrArg (blk0 m c t) (funext fun a => Fin.ext ?_)
  match a with
  | ⟨0, _⟩ =>
    show (BitVec.ofNat 32 ((grid0.coords t) 1).val).toNat + 1 * 0 = (t.val / 16) % 4
    rw [(coords_facts t).1, BitVec.toNat_ofNat]
    omega
  | ⟨1, _⟩ =>
    show 0 + 1 * b.val = b.val
    omega

/-- The weight block of point `t`. -/
theorem blk1_apply (c : Dev nD) (t : Fin cfg0.N) (n : Fin 2048) (k : Fin 512) :
    blk1 m c t (ix2 n k)
      = Wt m c (ix2 (⟨(t.val / 64) * 2048 + n.val, by have := N_lt t; omega⟩ : Fin 8192)
                    (⟨(t.val % 64) * 512 + k.val, by omega⟩ : Fin 32768)) := by
  show V m c main_arg1 (((cfg0.win 1).blk t).view.emb (ix2 n k)) = _
  rw [V_main_arg1]
  refine congrArg (Wt m c) (funext fun a => Fin.ext ?_)
  match a with
  | ⟨0, _⟩ =>
    show win0_1.index t 0 * 2048 + 1 * n.val = (t.val / 64) * 2048 + n.val
    rw [(idx1_facts t).1]; omega
  | ⟨1, _⟩ =>
    show win0_1.index t 1 * 512 + 1 * k.val = (t.val % 64) * 512 + k.val
    rw [(idx1_facts t).2]; omega

/-- The bias block of point `t`. -/
theorem blk2_apply (c : Dev nD) (t : Fin cfg0.N) (n : Fin 2048) :
    blk2 m c t (ix1 n) = Bs m c (ix1 (⟨(t.val / 64) * 2048 + n.val, by have := N_lt t; omega⟩ : Fin 8192)) := by
  show V m c main_arg2 (((cfg0.win 2).blk t).view.emb (ix1 n)) = _
  rw [V_main_arg2]
  refine congrArg (Bs m c) (funext fun a => Fin.ext ?_)
  match a with
  | ⟨0, _⟩ =>
    show win0_2.index t 0 * 2048 + 1 * n.val = (t.val / 64) * 2048 + n.val
    rw [idx2_facts t]; omega

end Cert.KernelIdeal.Blocks

end
-- ==== Proof.Spec.lean ====
/-
  The function both programs compute, and the arithmetic that joins them.

  For a batch row `b` and an output column `o` the result is
      (∑ over the four context slots i of  W[o, i·8192 + ctx[b,i]])  +  bias[o],
  a row gather over the weight matrix, one row per slot, followed by the bias.

  The kernel reaches the same number as a product with a one-hot row: slot `i` is cut into sixteen
  chunks of 512 columns, and in chunk `vk` the one-hot row has its single one at offset
  `ctx[b,i] − 512·vk` when the index lies in that chunk and is all zero otherwise.  So a chunk
  contributes `W[o, i·8192 + ctx[b,i]]` exactly when `ctx[b,i] / 512 = vk`, and nothing otherwise;
  running over the 64 (slot, chunk) pairs in order, the accumulator after pair number `r` holds the
  slots whose pair number `16·i + ctx[b,i]/512` is at most `r` (`partialHits`), and after the last
  pair all four.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

abbrev S1024x4 : Shape := ⟨2, ![1024, 4]⟩
abbrev S8192x32768 : Shape := ⟨2, ![8192, 32768]⟩
abbrev S8192 : Shape := ⟨1, ![8192]⟩
abbrev S1024x8192 : Shape := ⟨2, ![1024, 8192]⟩

/-- The weight column that slot `i` reads for the index word `c`: `i·8192 + c` (the word taken modulo
    the vocabulary size, which changes nothing for an index in range and keeps the column inside the
    matrix for every word). -/
def col (i : Fin 4) (c : BitVec 32) : Fin 32768 := ⟨i.val * 8192 + c.toNat % 8192, by omega⟩

/-- THE RESULT: at `(b, o)` the sum over the four slots of the gathered weight entries, plus the bias. -/
def G (ctx : S1024x4.Idx → BitVec 32) (W : S8192x32768.Idx → EReal) (bias : S8192.Idx → EReal) :
    S1024x8192.Idx → EReal :=
  fun y => (∑ i : Fin 4, W (ix2 (y 1 : Fin 8192) (col i (ctx (ix2 (y 0 : Fin 1024) i))))) + bias (ix1 (y 1 : Fin 8192))

/-! ## A product with a one-hot row picks one entry -/

/-- The one-hot row of chunk `vk` against a row `f` of 512 entries: the entry at offset `c % 512` when `c`
    lies in the chunk, zero when it does not. -/
theorem onehot_sum (vk c : ℕ) (f : Fin 512 → EReal) :
    (∑ k : Fin 512, (if k.val + vk * 512 = c then (1 : EReal) else 0) * f k)
      = if c / 512 = vk then f ⟨c % 512, Nat.mod_lt _ (by norm_num)⟩ else 0 := by
  by_cases h : c / 512 = vk
  · rw [if_pos h]
    rw [Finset.sum_eq_single (⟨c % 512, Nat.mod_lt _ (by norm_num)⟩ : Fin 512)]
    · rw [if_pos (by show c % 512 + vk * 512 = c; omega), one_mul]
    · intro k _ hk
      rw [if_neg (by intro e; apply hk; apply Fin.ext; show k.val = c % 512; omega), zero_mul]
    · intro hn; exact absurd (Finset.mem_univ _) hn
  · rw [if_neg h]
    refine Finset.sum_eq_zero fun k _ => ?_
    rw [if_neg (by have := k.isLt; omega), zero_mul]

/-- The kernel compares 32-bit words: the iota word plus the chunk's base word against the index word.
    Below the vocabulary size nothing wraps, so the words agree exactly when the numbers do. -/
theorem word_eq_iff (k vk : ℕ) (hk : k < 512) (hvk : vk < 16) (c : BitVec 32) :
    (BitVec.ofNat 32 k + BitVec.ofNat 32 vk * 512#32 = c) ↔ k + vk * 512 = c.toNat := by
  constructor
  · intro h
    have := congrArg BitVec.toNat h
    simp only [BitVec.toNat_add, BitVec.toNat_mul, BitVec.toNat_ofNat] at this
    omega
  · intro h
    apply BitVec.eq_of_toNat_eq
    simp only [BitVec.toNat_add, BitVec.toNat_mul, BitVec.toNat_ofNat]
    omega

/-! ## The slots met so far -/

/-- After pair number `r` (pairs numbered `16·slot + chunk`): the entries `w i` of the slots whose own
    pair number `16·i + a i` is at most `r`. -/
def partialHits (a : Fin 4 → ℕ) (w : Fin 4 → EReal) (r : ℕ) : EReal :=
  ∑ i : Fin 4, if i.val * 16 + a i ≤ r then w i else 0

/-- At the first pair only slot 0 can have been met, and only if its index lies in chunk 0. -/
theorem partialHits_zero (a : Fin 4 → ℕ) (w : Fin 4 → EReal) :
    partialHits a w 0 = if a 0 = 0 then w 0 else 0 := by
  unfold partialHits
  rw [Finset.sum_eq_single (0 : Fin 4)]
  · by_cases h : a 0 = 0
    · rw [if_pos h, if_pos (by show (0 : Fin 4).val * 16 + a 0 ≤ 0; simp [h])]
    · rw [if_neg h, if_neg (by show ¬ (0 : Fin 4).val * 16 + a 0 ≤ 0; simp; omega)]
  · intro i _ hi
    rw [if_neg]
    have : i.val ≠ 0 := fun e => hi (Fin.ext e)
    omega
  · intro hn; exact absurd (Finset.mem_univ _) hn

/-- One more pair adds the slot of that pair when its index lies in that pair's chunk, and nothing otherwise. -/
theorem partialHits_succ (a : Fin 4 → ℕ) (w : Fin 4 → EReal) (ha : ∀ i, a i < 16) (r : ℕ) (hr : r + 1 < 64) :
    partialHits a w (r + 1)
      = partialHits a w r + (if a ⟨(r + 1) / 16, by omega⟩ = (r + 1) % 16 then w ⟨(r + 1) / 16, by omega⟩ else 0) := by
  unfold partialHits
  have hsplit : ∀ i : Fin 4, (if i.val * 16 + a i ≤ r + 1 then w i else 0)
      = (if i.val * 16 + a i ≤ r then w i else 0) + (if i.val * 16 + a i = r + 1 then w i else 0) := by
    intro i
    by_cases h1 : i.val * 16 + a i ≤ r
    · rw [if_pos h1, if_pos (by omega), if_neg (by omega), add_zero]
    · by_cases h2 : i.val * 16 + a i = r + 1
      · rw [if_neg h1, if_pos h2, if_pos (by omega), zero_add]
      · rw [if_neg h1, if_neg h2, if_neg (by omega), zero_add]
  rw [Finset.sum_congr rfl (fun i _ => hsplit i), Finset.sum_add_distrib]
  congr 1
  rw [Finset.sum_eq_single (⟨(r + 1) / 16, by omega⟩ : Fin 4)]
  · by_cases h : a ⟨(r + 1) / 16, by omega⟩ = (r + 1) % 16
    · rw [if_pos h, if_pos (by show (r + 1) / 16 * 16 + a ⟨(r + 1) / 16, _⟩ = r + 1; omega)]
    · rw [if_neg h, if_neg (by show ¬ (r + 1) / 16 * 16 + a ⟨(r + 1) / 16, _⟩ = r + 1; omega)]
  · intro i _ hi
    rw [if_neg]
    have hai := ha i
    have : i.val ≠ (r + 1) / 16 := fun e => hi (Fin.ext e)
    omega
  · intro hn; exact absurd (Finset.mem_univ _) hn

/-- After the last pair every slot has been met. -/
theorem partialHits_last (a : Fin 4 → ℕ) (w : Fin 4 → EReal) (ha : ∀ i, a i < 16) :
    partialHits a w 63 = ∑ i : Fin 4, w i := by
  unfold partialHits
  refine Finset.sum_congr rfl fun i _ => ?_
  rw [if_pos]
  have := ha i; have := i.isLt; omega

end Cert.Spec

end
-- ==== Proof.KerPayload.lean ====
/-
  The kernel's arithmetic at one grid point, read entry by entry over the extended reals.

  At a point with slot `i` and chunk `vk` the body forms the one-hot matrix `E[b, k] = 1` when the
  32-bit word `k + 512·vk` equals the context word of batch row `b` (the row of slot `i`) and `0`
  otherwise, and updates the accumulator twice:
      acc ← acc + E · Wᵀ        (W the point's 2048 × 512 block of weights)
      acc ← acc + E · (W − W)ᵀ  (the low half of the split, which is `W − W` once format changes are the identity).
  Each product into a zero accumulator is, at `(b, n)`, the sum over the 512 columns `k` of
  `E[b, k] · X[n, k]`.
-/
import proofs.«419701_j33122787787244_2_alg».proof.Proof.Gen.KernelIdeal.Skeleton
import proofs.«419701_j33122787787244_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen

/-! ## The product of a 1024 × 512 by a 2048 × 512 matrix, contracted on the columns of both -/

theorem lhs_dot_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl

theorem lhs_dot_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q

theorem rhs_dot_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl

theorem rhs_dot_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- Into a zero accumulator the product at `(b, n)` is `∑ k, L[b, k] · R[n, k]`. -/
theorem matmul_zero_apply (L : FVec Ideal S1024x512 .bf16) (R : FVec Ideal S2048x512 .bf16) (b : Fin 1024) (n : Fin 2048) :
    matmul dot_S1024x512_S2048x512_S1024x2048_1_1_0_0_n_n none L R (constant S1024x2048 .f32 0x00000000#32) (ix2 b n)
      = ∑ k : Fin 512, L (ix2 b k) * R (ix2 n k) := by
  show FloatOps.matmul dot_S1024x512_S2048x512_S1024x2048_1_1_0_0_n_n none L R (constant S1024x2048 .f32 0x00000000#32) (ix2 b n) = _
  rw [Ideal.matmul_constant_zero_apply,
    ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 b n)
      ((ValueIdx.contrEquiv1 dot_S1024x512_S2048x512_S1024x2048_1_1_0_0_n_n 512 rfl rfl).symm k) = ix2 b k :=
    funext fun a => Fin.ext (by
      match a with
      | ⟨0, _⟩ => exact lhs_dot_0 _ _
      | ⟨1, _⟩ => exact (lhs_dot_1 _ _).trans hk)
  have er : dot_S1024x512_S2048x512_S1024x2048_1_1_0_0_n_n.rhsIdx (ix2 b n)
      ((ValueIdx.contrEquiv1 dot_S1024x512_S2048x512_S1024x2048_1_1_0_0_n_n 512 rfl rfl).symm k) = ix2 n k :=
    funext fun a => Fin.ext (by
      match a with
      | ⟨0, _⟩ => exact rhs_dot_0 _ _
      | ⟨1, _⟩ => exact (rhs_dot_1 _ _).trans hk)
  rw [el, er]

/-! ## The one-hot matrix -/

/-- An equality test of two words, widened and converted to a float, is `1` or `0`. -/
theorem eq_word_to_float (x y : BitVec 32) :
    FloatOps.sitofp (F := Ideal) .f32 ((IntOp.cmpi .eq x y).setWidth 32) = if x = y then (1 : EReal) else 0 := by
  by_cases h : x = y
  · rw [if_pos h]
    have e : IntOp.cmpi .eq x y = 1#1 := by simp [IntOp.cmpi, h]
    rw [e]
    show ((((((1#1 : BitVec 1).setWidth 32).toInt : ℤ) : ℝ)) : EReal) = 1
    rw [show ((1#1 : BitVec 1).setWidth 32).toInt = 1 from by decide]
    simp
  · rw [if_neg h]
    have e : IntOp.cmpi .eq x y = 0#1 := by
      unfold IntOp.cmpi
      rw [show (x == y) = false from beq_eq_false_iff_ne.mpr h]
      rfl
    rw [e]
    show ((((((0#1 : BitVec 1).setWidth 32).toInt : ℤ) : ℝ)) : EReal) = 0
    rw [show ((0#1 : BitVec 1).setWidth 32).toInt = 0 from by decide]
    simp

/-- The context row, turned into a column and broadcast along the 512 columns, reads at `(b, k)` the word of batch row `b`. -/
theorem ctx_col_apply (v9 : Vec Ideal S1x1024 .i32) (b : Fin 1024) (k : Fin 512) :
    broadcastTo S1024x512 (shapeCast S1024x1 (shapeCast S1024 v9 shapeCasts_S1x1024_S1024) shapeCasts_S1024_S1024x1)
      broadcasts_S1024x1_S1024x512 (ix2 b k) = v9 (ix2 (0 : Fin 1) b) := by
  rw [broadcastTo_apply _ broadcasts_S1024x1_S1024x512 (ix2 b k) (ix2 b (0 : Fin 1)) (fun a => by
    match a with
    | ⟨0, _⟩ => show b.val = if (1024 : Nat) = 1 then 0 else b.val; rw [if_neg (by decide)]
    | ⟨1, _⟩ => show 0 = if (1 : Nat) = 1 then 0 else k.val; rw [if_pos rfl])]
  rw [shapeCast_apply _ shapeCasts_S1024_S1024x1 (ix2 b (0 : Fin 1)) (ix1 b) (by
    rw [Shape.rowMajor_val_two, Shape.rowMajor_val_one]
    show b.val = b.val * 1 + 0
    omega)]
  exact shapeCast_1a_a_apply v9 shapeCasts_S1x1024_S1024 b

/-- THE ONE-HOT ENTRY at `(b, k)`: `1` when the word `k + 512·vk` is the context word of row `b`, else `0`. -/
theorem onehot_apply (i : grid0.Coords) (v9 : Vec Ideal S1x1024 .i32) (b : Fin 1024) (k : Fin 512) :
    k0_pay4 (F := Ideal) i v9 (ix2 b k)
      = if BitVec.ofNat 32 k.val + BitVec.ofNat 32 (i 2).val * 512#32 = v9 (ix2 (0 : Fin 1) b) then (1 : EReal) else 0 := by
  unfold k0_pay4
  dsimp only
  rw [truncf_apply, sitofp_apply, extui_apply]
  show FloatOps.sitofp (F := Ideal) .f32 ((IntOp.cmpi .eq
      (IntOp.addi (iota .tc S1024x512 32 [1] iota_S1024x512_d1_w32 (ix2 b k))
        (Scalar.muli (BitVec.ofNat 32 (i 2).val) 512#32))
      (broadcastTo S1024x512 (shapeCast S1024x1 (shapeCast S1024 v9 shapeCasts_S1x1024_S1024) shapeCasts_S1024_S1024x1)
        broadcasts_S1024x1_S1024x512 (ix2 b k))).setWidth 32) = _
  rw [ctx_col_apply, eq_word_to_float]
  have e : IntOp.addi (iota .tc S1024x512 32 [1] iota_S1024x512_d1_w32 (ix2 b k)) (Scalar.muli (BitVec.ofNat 32 (i 2).val) 512#32)
      = BitVec.ofNat 32 k.val + BitVec.ofNat 32 (i 2).val * 512#32 := by
    show BitVec.ofNat 32 (0 * 512 + k.val) + BitVec.ofNat 32 (i 2).val * 512#32 = _
    rw [Nat.zero_mul, Nat.zero_add]
  rw [e]

/-! ## The two accumulations -/

/-- The first update: `acc + E · Wᵀ`. -/
theorem pay5_apply (i : grid0.Coords) (v9 : Vec Ideal S1x1024 .i32) (v21 : Vec Ideal S2048x512 .f32)
    (v26 : Vec Ideal S1024x2048 .f32) (b : Fin 1024) (n : Fin 2048) :
    k0_pay5 (F := Ideal) i v9 v21 v26 (ix2 b n)
      = v26 (ix2 b n) + ∑ k : Fin 512, k0_pay4 (F := Ideal) i v9 (ix2 b k) * v21 (ix2 n k) := by
  unfold k0_pay5
  try dsimp only
  rw [shapeCast_self, addf_apply, matmul_zero_apply]
  rfl

/-- The second update: `acc + E · (W − W)ᵀ`. -/
theorem pay6_apply (i : grid0.Coords) (v9 : Vec Ideal S1x1024 .i32) (v21 : Vec Ideal S2048x512 .f32)
    (v32 : Vec Ideal S1024x2048 .f32) (b : Fin 1024) (n : Fin 2048) :
    k0_pay6 (F := Ideal) i v9 v21 v32 (ix2 b n)
      = v32 (ix2 b n) + ∑ k : Fin 512, k0_pay4 (F := Ideal) i v9 (ix2 b k) * (v21 (ix2 n k) - v21 (ix2 n k)) := by
  unfold k0_pay6
  try dsimp only
  rw [addf_apply, matmul_zero_apply]
  rfl

/-- What is stored back is the second update itself. -/
theorem pay1_eq (v34 : FVec Ideal S1024x2048 .f32) : k0_pay1 (F := Ideal) v34 = v34 := by
  unfold k0_pay1
  try dsimp only
  rw [shapeCast_self]

/-- The reset value is zero everywhere. -/
theorem pay3_apply (y : S1024x2048.Idx) : k0_pay3 (F := Ideal) y = 0 := by
  unfold k0_pay3
  try dsimp only
  rw [shapeCast_self]
  show Ideal.ofBits .f32 0x00000000#32 = 0
  exact Ideal.ofBits_zero_f32

/-- The output block: the accumulator plus the bias of the column. -/
theorem pay2_apply (v40 : Vec Ideal S1024x2048 .f32) (v41 : Vec Ideal S2048 .f32) (b : Fin 1024) (n : Fin 2048) :
    k0_pay2 (F := Ideal) v40 v41 (ix2 b n) = v40 (ix2 b n) + v41 (ix1 n) := by
  unfold k0_pay2
  try dsimp only
  rw [addf_apply]
  congr 1
  rw [broadcastTo_apply _ broadcasts_S1x2048_S1024x2048 (ix2 b n) (ix2 (0 : Fin 1) n) (fun a => by
    match a with
    | ⟨0, _⟩ => show 0 = if (1 : Nat) = 1 then 0 else b.val; rw [if_pos rfl]
    | ⟨1, _⟩ => show n.val = if (2048 : Nat) = 1 then 0 else n.val; rw [if_neg (by decide)])]
  exact shapeCast_a_1a_apply v41 shapeCasts_S2048_S1x2048 0 n

/-! ## One whole point -/

/-- What a point leaves in the accumulator over what it found there (`acc`), from the context row `v9` and the
    weight block `x1`: both updates, then the store. -/
def step (i : grid0.Coords) (v9 : Vec Ideal S1x1024 .i32) (x1 : Vec Ideal S2048x512 .f32)
    (acc : Vec Ideal S1024x2048 .f32) : Vec Ideal S1024x2048 .f32 :=
  k0_pay1 (F := Ideal) (k0_pay6 (F := Ideal) i v9 x1 (k0_pay5 (F := Ideal) i v9 x1 acc))

/-- For a weight block of real numbers and a context word below the vocabulary size, a point adds to the
    accumulator at `(b, n)` the block's entry `x1[n, c % 512]` when the word `c` of row `b` lies in the point's
    chunk (`c / 512 = vk`), and nothing otherwise: the one-hot row picks that one column, and the second
    update adds `∑ E · (x − x) = 0`. -/
theorem step_apply (i : grid0.Coords) (v9 : Vec Ideal S1x1024 .i32) (x1 : Vec Ideal S2048x512 .f32)
    (acc : Vec Ideal S1024x2048 .f32) (hfin : ∀ y, ∃ r : ℝ, x1 y = (r : EReal)) (b : Fin 1024) (n : Fin 2048)
    (hc : (v9 (ix2 (0 : Fin 1) b)).toNat < 8192) (hvk : (i 2).val < 16) :
    step i v9 x1 acc (ix2 b n)
      = acc (ix2 b n) + (if (v9 (ix2 (0 : Fin 1) b)).toNat / 512 = (i 2).val
          then x1 (ix2 n ⟨(v9 (ix2 (0 : Fin 1) b)).toNat % 512, Nat.mod_lt _ (by norm_num)⟩) else 0) := by
  unfold step
  rw [pay1_eq, pay6_apply, pay5_apply]
  have hzero : ∑ k : Fin 512, k0_pay4 (F := Ideal) i v9 (ix2 b k) * (x1 (ix2 n k) - x1 (ix2 n k)) = 0 := by
    refine Finset.sum_eq_zero fun k _ => ?_
    obtain ⟨r, hr⟩ := hfin (ix2 n k)
    rw [hr, ← EReal.coe_sub, sub_self, EReal.coe_zero, mul_zero]
  rw [hzero, add_zero]
  congr 1
  have hoh : ∀ k : Fin 512, k0_pay4 (F := Ideal) i v9 (ix2 b k)
      = if k.val + (i 2).val * 512 = (v9 (ix2 (0 : Fin 1) b)).toNat then (1 : EReal) else 0 := by
    intro k
    rw [onehot_apply]
    exact if_congr (Cert.Spec.word_eq_iff k.val (i 2).val k.isLt hvk _) rfl rfl
  rw [Finset.sum_congr rfl (fun k _ => by rw [hoh k])]
  exact Cert.Spec.onehot_sum (i 2).val (v9 (ix2 (0 : Fin 1) b)).toNat (fun k => x1 (ix2 n k))

end Cert.KernelIdeal.Payload

end
-- ==== Proof.KerAcc.lean ====
/-
  What the carried accumulator holds after every grid point.

  Fix a batch row `b` and a column `n` of output tile `j`.  Slot `i` contributes the weight entry
  `entry i = W[2048·j + n, 8192·i + ctx[b,i]]`, and it does so at exactly one of the tile's 64 points: the
  point number `16·i + ctx[b,i]/512` (slot `i`, the chunk its index lies in).  So after point number `r`
  of the tile the accumulator holds the entries of the slots whose point number is at most `r`
  (`Spec.partialHits`): the first point starts from zero and may meet slot 0; every later point adds its own
  slot's entry when the index lies in its chunk and nothing otherwise.
-/
import proofs.«419701_j33122787787244_2_alg».proof.Proof.KerBlocks
import proofs.«419701_j33122787787244_2_alg».proof.Proof.KerPayload
import proofs.«419701_j33122787787244_2_alg».proof.Proof.KerPieces
import proofs.«419701_j33122787787244_2_alg».proof.Proof.Spec

set_option maxRecDepth 16384

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.Blocks

variable (m : (ℓ : Loc nD τ sig) → Buf (Elt Ideal) ℓ)

/-- The chunk (of 512 columns) in which slot `i`'s index of row `b` lies. -/
def chunkOf (c : Dev nD) (b : Fin 1024) (i : Fin 4) : ℕ := (ctx m c (ix2 b i)).toNat / 512

/-- The weight entry slot `i` contributes at row `b`, column `n` of output tile `j`. -/
def entry (c : Dev nD) (j : Fin 4) (b : Fin 1024) (n : Fin 2048) (i : Fin 4) : EReal :=
  Wt m c (ix2 (⟨j.val * 2048 + n.val, by omega⟩ : Fin 8192) (Cert.Spec.col i (ctx m c (ix2 b i))))

/-- The accumulator's entry `(b, n)` after point number `r` of output tile `j`. -/
def hits (c : Dev nD) (j : Fin 4) (r : ℕ) (b : Fin 1024) (n : Fin 2048) : EReal :=
  Cert.Spec.partialHits (chunkOf m c b) (entry m c j b n) r

theorem chunk_lt (c : Dev nD) (hin : ∀ y, (ctx m c y).toNat < 8192) (b : Fin 1024) (i : Fin 4) :
    chunkOf m c b i < 16 := by
  unfold chunkOf; have := hin (ix2 b i); omega

/-- Every entry of a point's weight block is a real number when every weight is. -/
theorem blk1_fin (c : Dev nD) (hfin : ∀ y, ∃ r : ℝ, Wt m c y = (r : EReal)) (t : Fin cfg0.N) :
    ∀ y, ∃ r : ℝ, blk1 m c t y = (r : EReal) := by
  intro y
  obtain ⟨n, k, rfl⟩ : ∃ (n : Fin 2048) (k : Fin 512), y = ix2 n k := ⟨y 0, y 1, eq_ix2 y⟩
  rw [blk1_apply]
  exact hfin _

/-- ONE POINT: at `(b, n)` the point of slot `i`, chunk `t % 16` and tile `j` adds slot `i`'s entry when the
    slot's index lies in that chunk, and nothing otherwise. -/
theorem upd_apply (c : Dev nD) (hfin : ∀ y, ∃ r : ℝ, Wt m c y = (r : EReal)) (hin : ∀ y, (ctx m c y).toNat < 8192)
    (t : Fin cfg0.N) (i j : Fin 4) (hi : (t.val / 16) % 4 = i.val) (hj : t.val / 64 = j.val)
    (acc : Vec Ideal S1024x2048 .f32) (b : Fin 1024) (n : Fin 2048) :
    Pieces.upd (F := Ideal) (grid0.coords t) (blk0 m c t) (blk1 m c t) acc (ix2 b n)
      = acc (ix2 b n) + (if chunkOf m c b i = t.val % 16 then entry m c j b n i else 0) := by
  have hrow : Pieces.row (F := Ideal) (grid0.coords t) (blk0 m c t) (ix2 (0 : Fin 1) b) = ctx m c (ix2 b i) := by
    rw [row_apply]
    exact congrArg (fun q => ctx m c (ix2 b q)) (Fin.ext hi)
  show Payload.step (grid0.coords t) (Pieces.row (F := Ideal) (grid0.coords t) (blk0 m c t)) (blk1 m c t) acc (ix2 b n) = _
  rw [Payload.step_apply _ _ _ _ (blk1_fin m c hfin t) b n (by rw [hrow]; exact hin _)
    (by rw [(coords_facts t).2]; omega)]
  rw [hrow, (coords_facts t).2]
  congr 1
  unfold chunkOf
  by_cases h : (ctx m c (ix2 b i)).toNat / 512 = t.val % 16
  · rw [if_pos h, if_pos h, blk1_apply]
    unfold entry
    have hcw := hin (ix2 b i)
    have hN := N_lt t
    refine congrArg (Wt m c) (congrArg₂ ix2 (Fin.ext ?_) (Fin.ext ?_))
    · show t.val / 64 * 2048 + n.val = j.val * 2048 + n.val
      rw [hj]
    · show t.val % 64 * 512 + (ctx m c (ix2 b i)).toNat % 512 = i.val * 8192 + (ctx m c (ix2 b i)).toNat % 8192
      omega
  · rw [if_neg h, if_neg h]

/-- THE ACCUMULATOR after point `n`, whose output tile is `j`: the slots met up to point number `n % 64`. -/
theorem scratch_eq (c : Dev nD) (hfin : ∀ y, ∃ r : ℝ, Wt m c y = (r : EReal)) (hin : ∀ y, (ctx m c y).toNat < 8192) :
    ∀ (n : ℕ) (h : n < cfg0.N) (j : Fin 4), n / 64 = j.val → ∀ (b : Fin 1024) (nn : Fin 2048),
      (outsAt0 m c n h).2 (ix2 b nn) = hits m c j (n % 64) b nn := by
  intro n
  induction n with
  | zero =>
    intro h j hj b nn
    rw [outsAt0_A m c ⟨0, h⟩ rfl (by show ¬ (0 : ℕ) % 64 = 63; omega)]
    dsimp only
    rw [Pieces.sout_A, upd_apply m c hfin hin ⟨0, h⟩ 0 j (by show (0 : ℕ) / 16 % 4 = 0; rfl) hj, Payload.pay3_apply, zero_add]
    show (if chunkOf m c b 0 = 0 then entry m c j b nn 0 else 0) = hits m c j 0 b nn
    unfold hits
    rw [Cert.Spec.partialHits_zero]
  | succ n ih =>
    intro h j hj b nn
    have hN : n + 1 < 256 := lt_of_lt_of_eq h N_0
    have hch := chunk_lt m c hin b
    by_cases h0 : (n + 1) % 64 = 0
    · have h1 : ¬ (n + 1) % 64 = 63 := by omega
      rw [outsAt0_A m c ⟨n + 1, h⟩ h0 h1]
      dsimp only
      rw [Pieces.sout_A, upd_apply m c hfin hin ⟨n + 1, h⟩ 0 j (by show (n + 1) / 16 % 4 = 0; omega) hj,
        Payload.pay3_apply, zero_add]
      show (if chunkOf m c b 0 = (n + 1) % 16 then entry m c j b nn 0 else 0) = hits m c j ((n + 1) % 64) b nn
      rw [h0, show (n + 1) % 16 = 0 by omega]
      unfold hits
      rw [Cert.Spec.partialHits_zero]
    · have hprev : n / 64 = j.val := by omega
      have ih' := ih (Nat.lt_of_succ_lt h) j hprev b nn
      have hstep : (n + 1) % 64 = n % 64 + 1 := by omega
      have hi : (n + 1) / 16 % 4 = (n % 64 + 1) / 16 := by omega
      have key : (outsAt0 m c (n + 1) h).2 (ix2 b nn)
          = (outsAt0 m c n (Nat.lt_of_succ_lt h)).2 (ix2 b nn)
            + (if chunkOf m c b ⟨(n % 64 + 1) / 16, by omega⟩ = (n + 1) % 16
                then entry m c j b nn ⟨(n % 64 + 1) / 16, by omega⟩ else 0) := by
        by_cases h1 : (n + 1) % 64 = 63
        · rw [outsAt0_C m c ⟨n + 1, h⟩ h0 h1]
          dsimp only
          rw [Pieces.sout_C]
          exact upd_apply m c hfin hin ⟨n + 1, h⟩ ⟨(n % 64 + 1) / 16, by omega⟩ j hi hj _ b nn
        · rw [outsAt0_B m c ⟨n + 1, h⟩ h0 h1]
          dsimp only
          rw [Pieces.sout_B]
          exact upd_apply m c hfin hin ⟨n + 1, h⟩ ⟨(n % 64 + 1) / 16, by omega⟩ j hi hj _ b nn
      rw [key, ih', hstep]
      unfold hits
      rw [Cert.Spec.partialHits_succ _ _ hch (n % 64) (by omega), show (n + 1) % 16 = (n % 64 + 1) % 16 by omega]

/-- After the LAST point of output tile `j` the accumulator holds all four slots' entries. -/
theorem scratch_last (c : Dev nD) (hfin : ∀ y, ∃ r : ℝ, Wt m c y = (r : EReal)) (hin : ∀ y, (ctx m c y).toNat < 8192)
    (t : Fin cfg0.N) (h1 : t.val % 64 = 63) (j : Fin 4) (hj : t.val / 64 = j.val) (b : Fin 1024) (nn : Fin 2048) :
    (outsAt0 m c t.val t.isLt).2 (ix2 b nn) = ∑ i : Fin 4, entry m c j b nn i := by
  rw [scratch_eq m c hfin hin t.val t.isLt j hj b nn, h1]
  unfold hits
  exact Cert.Spec.partialHits_last _ _ (chunk_lt m c hin b)

end Cert.KernelIdeal.Acc

end
-- ==== Proof.PreFacts.lean ====
import proofs.«419701_j33122787787244_2_alg».proof.Pre_finite_inputs
import proofs.«419701_j33122787787244_2_alg».proof.Proof.Gen.Pre_finite_inputs
import Idealize.ShloMosaic.PureOps.Ideal
import Idealize.ShloMosaic.Lib.ReduceAll
import Idealize.ShloMosaic.Lib.StableHlo.Predicate

noncomputable section

namespace Cert.PreFacts

open Idealize.ShloMosaic Cert.Pre_finite_inputs

/-- The rank-0 shape has exactly one index: there is no axis to disagree on. -/
instance subsingleton_S_ : Subsingleton S_.Idx := ⟨fun _ _ => funext fun d => d.elim0⟩

/-- The f32 pattern `0x7F800000` (exponent all ones, fraction zero, sign clear) denotes `+∞`. -/
theorem ofBits_inf : Ideal.ofBits .f32 0x7F800000#32 = (⊤ : EReal) := by
  simp [Ideal.ofBits, Ideal.ieee]

/-- An extended real whose absolute value `max x (-x)` compares strictly below `+∞` is neither
    infinity, hence a real number: `x < ⊤` excludes `⊤`, and `-x < ⊤` excludes `⊥`. -/
theorem real_of_abs_lt_inf (x : EReal)
    (h : Ideal.cmp .olt (max x (-x)) (Ideal.ofBits .f32 0x7F800000#32) = 1#1) :
    ∃ r : ℝ, x = (r : EReal) := by
  rw [ofBits_inf] at h
  simp only [Ideal.cmp, StableHlo.Predicate.ofBool_eq_one_iff, decide_eq_true_eq] at h
  obtain ⟨h1, h2⟩ := max_lt_iff.mp h
  have hx : x ≠ ⊤ := h1.ne
  have hx' : x ≠ ⊥ := fun e => h2.ne (EReal.neg_eq_top_iff.mpr e)
  exact ⟨x.toReal, (EReal.coe_toReal hx hx').symm⟩

/-- A 32-bit word that reads, signed, at least 0 and below 8192 reads the same unsigned: its top bit is
    clear, so its signed and unsigned values coincide, and the unsigned value is below 8192. -/
theorem toNat_lt_of_signed_range (w : BitVec 32) (h0 : IntOp.cmpi .sge w 0#32 = 1#1)
    (h1 : IntOp.cmpi .slt w 8192#32 = 1#1) : w.toNat < 8192 := by
  rw [IntOp.cmpi_sge, show (0#32 : BitVec 32).toInt = 0 from by decide] at h0
  rw [IntOp.cmpi_slt, show (8192#32 : BitVec 32).toInt = 8192 from by decide] at h1
  have hpos : 2 * w.toNat < 2 ^ 32 := BitVec.toInt_pos_iff.mp h0
  have e : w.toInt = w.toNat := StableHlo.Predicate.toInt_eq_toNat_of_lt (by omega)
  rw [e] at h1
  omega

/-- What the precondition says, read off its printed form: every weight is a real number, and every
    context index lies in `[0, 8192)`. -/
theorem of_pre [Cert.Pre_finite_inputs.Facts] (a0 : IVec S1024x4 32) (a1 : FVec Ideal S8192x32768 .f32)
    (a2 : FVec Ideal S8192 .f32)
    (h : Cert.Pre_finite_inputs.fn (F := Ideal) a0 a1 a2 = fun _ => 1#1) :
    (∀ i, ∃ r : ℝ, a1 i = (r : EReal)) ∧ (∀ i, (a0 i).toNat < 8192) := by
  -- the predicate at its one index: a conjunction of four all-reductions
  have h0 := congrFun h (fun a => a.elim0)
  dsimp only [fn, fn_part1, andi] at h0
  rw [IntOp.andi_eq_one, IntOp.andi_eq_one, IntOp.andi_eq_one] at h0
  obtain ⟨⟨⟨hw, -⟩, hge⟩, hlt⟩ := h0
  refine ⟨fun i => ?_, fun i => ?_⟩
  · -- the weight leg: |a1 i| < +∞ at every index
    have e : Ideal.cmp .olt (max (a1 i) (-(a1 i))) (Ideal.ofBits .f32 0x7F800000#32) = 1#1 :=
      Host.reduce_andi_all _ _ _ _ _ hw i
    exact real_of_abs_lt_inf _ e
  · -- the two index legs: 0 ≤ a0 i and a0 i < 8192, both read signed
    have e0 : IntOp.cmpi .sge (a0 i) 0#32 = 1#1 := Host.reduce_andi_all _ _ _ _ _ hge i
    have e1 : IntOp.cmpi .slt (a0 i) 8192#32 = 1#1 := Host.reduce_andi_all _ _ _ _ _ hlt i
    exact toNat_lt_of_signed_range _ e0 e1

end Cert.PreFacts

end
-- ==== Proof.KerValue.lean ====
/-
  The kernel's result array as one function of the argument arrays.

  Only the last point of each output tile (the points `t` with `t % 64 = 63`) stores the output block and
  writes it back: the accumulator, which by then holds all four slots' weight entries, plus the bias block.
  That block is exactly block `(0, t / 64)` of the specification `G`, and the four such blocks tile the
  1024 × 8192 output array (column `o` lies in the block of tile `o / 2048`), so the array ends holding `G`.
-/
import proofs.«419701_j33122787787244_2_alg».proof.Defs
import proofs.«419701_j33122787787244_2_alg».proof.Proof.Gen.KernelIdeal.Frame
import proofs.«419701_j33122787787244_2_alg».proof.Proof.Gen.KernelIdeal.Value
import proofs.«419701_j33122787787244_2_alg».proof.Proof.KerAcc
import proofs.«419701_j33122787787244_2_alg».proof.Proof.KerBlocks
import proofs.«419701_j33122787787244_2_alg».proof.Proof.KerPayload
import proofs.«419701_j33122787787244_2_alg».proof.Proof.KerPieces
import proofs.«419701_j33122787787244_2_alg».proof.Proof.PreFacts
import proofs.«419701_j33122787787244_2_alg».proof.Proof.Spec

set_option maxRecDepth 16384

noncomputable section

namespace Cert.KernelIdeal.KerValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (m : (ℓ : Loc nD τ sig) → Buf (Elt Ideal) ℓ) (ρ : Dev nD → PrngReg)

/-- The output block is written back exactly at the last point of each output tile. -/
theorem flush3_iff : ∀ t : Fin cfg0.N, (cfg0.win 3).flush t = true ↔ t.val % 64 = 63 :=
  (by decide +kernel : ∀ t : Fin grid0.N, _)

/-- The output window's block index at point `t`: row block 0, column block `t / 64`. -/
theorem idx3_facts : ∀ t : Fin cfg0.N, win0_3.index t (0 : Fin 2) = 0 ∧ win0_3.index t (1 : Fin 2) = t.val / 64 :=
  (by decide +kernel : ∀ t : Fin grid0.N, _)

/-- The specification at the argument arrays of core `c`. -/
abbrev Gk (c : Dev nD) : S1024x8192.Idx → EReal := Cert.Spec.G (ctx m c) (Wt m c) (Bs m c)

/-- WHAT A LAST POINT WRITES BACK is its block of `G`. -/
theorem flushed_eq (c : Dev nD) (hfin : ∀ y, ∃ r : ℝ, Wt m c y = (r : EReal)) (hin : ∀ y, (ctx m c y).toNat < 8192)
    (t : Fin cfg0.N) (hf : (cfg0.win 3).flush t = true) :
    (dats m 0 c).flushed 3 t = ((cfg0.win 3).blk t).view.read (Elt Ideal) (Gk m c) := by
  have h1 : t.val % 64 = 63 := (flush3_iff t).mp hf
  have h0 : ¬ t.val % 64 = 0 := by omega
  have hN := N_lt t
  have hs : (outsAt0 m c t.val t.isLt).2
      = Pieces.upd (F := Ideal) (grid0.coords t) (blk0 m c t) (blk1 m c t)
          (outsAt0 m c (t.val - 1) (Nat.lt_of_le_of_lt (Nat.sub_le _ _) t.isLt)).2 := by
    rw [outsAt0_C m c t h0 h1]
    dsimp only
    rw [Pieces.sout_C]
  rw [Value.flushed3_C m c t h0 h1, Pieces.out_C, ← hs]
  funext y
  obtain ⟨b, nn, rfl⟩ : ∃ (b : Fin 1024) (nn : Fin 2048), y = ix2 b nn := ⟨y 0, y 1, eq_ix2 y⟩
  show k0_pay2 (F := Ideal) ((outsAt0 m c t.val t.isLt).2) (blk2 m c t) (ix2 b nn)
      = Gk m c (((cfg0.win 3).blk t).view.emb (ix2 b nn))
  have hemb : ((cfg0.win 3).blk t).view.emb (ix2 b nn)
      = ix2 b (⟨(t.val / 64) * 2048 + nn.val, by omega⟩ : Fin 8192) := by
    funext a; apply Fin.ext
    match a with
    | ⟨0, _⟩ =>
      show win0_3.index t 0 * 1024 + 1 * b.val = b.val
      rw [(idx3_facts t).1]; omega
    | ⟨1, _⟩ =>
      show win0_3.index t 1 * 2048 + 1 * nn.val = (t.val / 64) * 2048 + nn.val
      rw [(idx3_facts t).2]; omega
  rw [hemb, Payload.pay2_apply,
    Acc.scratch_last m c hfin hin t h1 (⟨t.val / 64, by omega⟩ : Fin 4) rfl b nn, blk2_apply]
  rfl

/-- An index of the output array is in point `t`'s block iff each coordinate is in the block's range. -/
theorem mem_blk3 (t : Fin cfg0.N) (i : S1024x8192.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v1).slice (win0_3.rect t)).set ↔ _
  rw [View.set_slice_whole, Rect.mem_set_unit]
  exact Iff.rfl

/-- Every index of the output array lies in the block of its column's tile's last point. -/
theorem cover3 (i : S1024x8192.Idx) :
    ∃ t : Fin cfg0.N, (cfg0.win 3).flush t = true ∧ i ∈ ((cfg0.win 3).blk t).view.set := by
  have hi0 : (i 0).val < 1024 := (i 0).isLt
  have hi1 : (i 1).val < 8192 := (i 1).isLt
  have hlt : 64 * ((i 1).val / 2048) + 63 < cfg0.N := by rw [show cfg0.N = 256 from N_0]; omega
  refine ⟨⟨64 * ((i 1).val / 2048) + 63, hlt⟩, (flush3_iff _).mpr (by show (64 * ((i 1).val / 2048) + 63) % 64 = 63; omega), ?_⟩
  rw [mem_blk3]
  obtain ⟨e0, e1⟩ := idx3_facts ⟨64 * ((i 1).val / 2048) + 63, hlt⟩
  intro a
  match a with
  | ⟨0, _⟩ =>
    show win0_3.index ⟨64 * ((i 1).val / 2048) + 63, hlt⟩ 0 * 1024 ≤ (i 0).val
      ∧ (i 0).val < win0_3.index ⟨64 * ((i 1).val / 2048) + 63, hlt⟩ 0 * 1024 + 1024
    rw [e0]; omega
  | ⟨1, _⟩ =>
    show win0_3.index ⟨64 * ((i 1).val / 2048) + 63, hlt⟩ 1 * 2048 ≤ (i 1).val
      ∧ (i 1).val < win0_3.index ⟨64 * ((i 1).val / 2048) + 63, hlt⟩ 1 * 2048 + 2048
    rw [e1]
    show (64 * ((i 1).val / 2048) + 63) / 64 * 2048 ≤ (i 1).val ∧ (i 1).val < (64 * ((i 1).val / 2048) + 63) / 64 * 2048 + 2048
    omega

/-- THE OUTPUT ARRAY after the run is `G` of the argument arrays. -/
theorem final (c : Dev nD) (hfin : ∀ y, ∃ r : ℝ, Wt m c y = (r : EReal)) (hin : ∀ y, (ctx m c y).toNat < 8192) :
    (dats m 0 c).arrAt 3 cfg0.N = Gk m c :=
  (dats m 0 c).arrAt_eq_of_cover 3 (Gk m c) (fun t hf => flushed_eq m c hfin hin t hf) cover3

/-- THE RUN, READ: under the precondition every weakly fair execution of the idealized kernel ends with the result
    array at `G` of the arguments, and the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v1) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h c).1.trans (final m c (Cert.PreFacts.of_pre _ _ _ (hpre c)).1 (Cert.PreFacts.of_pre _ _ _ (hpre c)).2), (h c).2⟩)
    (Cert.KernelIdeal.Value.run_blocks m ρ)

end Cert.KernelIdeal.KerValue

end
-- ==== Proof.RefValue.lean ====
import proofs.«419701_j33122787787244_2_alg».proof.Defs
import proofs.«419701_j33122787787244_2_alg».proof.Proof.Gen.ReferenceIdeal.Run
import proofs.«419701_j33122787787244_2_alg».proof.Proof.Gen.ReferenceIdeal.Read
import proofs.«419701_j33122787787244_2_alg».proof.Proof.Spec

noncomputable section

namespace Cert.ReferenceIdeal.RefValue

open Idealize.ShloMosaic Cert.ReferenceIdeal
open Cert.ReferenceIdeal.Gen Cert.ReferenceIdeal.Read Idealize.ShloMosaic.ValueIdx

/-! ## Words: a small 32-bit word is non-negative, so the sign normalisation leaves it alone -/

/-- A word below 2³¹ read as a signed integer is its unsigned value. -/
theorem toInt_small (c : BitVec 32) (h : c.toNat < 2 ^ 31) : c.toInt = (c.toNat : Int) :=
  BitVec.toInt_eq_toNat_of_lt (by omega)

/-- A word below 2³¹ is not below zero in the signed order. -/
theorem slt_zero_small (c : BitVec 32) (h : c.toNat < 2 ^ 31) : IntOp.cmpi .slt c 0#32 = 0#1 := by
  have hlt : ¬ (c.toInt < (0#32 : BitVec 32).toInt) := by
    rw [toInt_small c h, BitVec.toInt_zero]; omega
  show BitVec.ofBool (decide (c.toInt < (0#32 : BitVec 32).toInt)) = 0#1
  rw [decide_eq_false hlt]; rfl

/-- The sign normalisation select(c < 0, c + k, c) of a word below 2³¹ is the word. -/
theorem normalise_small (c k : BitVec 32) (h : c.toNat < 2 ^ 31) :
    Scalar.select (IntOp.cmpi .slt c 0#32) (IntOp.addi c k) c = c := by
  rw [slt_zero_small c h]; exact select_zero _ _

/-- The clamp of a small word's signed value to [0, hi] is its unsigned value when that is at most hi. -/
theorem clamp_small (c : BitVec 32) (hi : Nat) (h : c.toNat ≤ hi) (h' : c.toNat < 2 ^ 31) :
    min c.toInt.toNat hi = c.toNat := by
  rw [toInt_small c h', Int.toNat_natCast]; exact Nat.min_eq_left h

/-! ## The start indices: slot number on component 0, context index on component 1 -/

/-- Component 0 of the start index at (b, i) is the slot number i. -/
theorem start0 (x0 : IVec S1024x4 32) (b : Fin 1024) (i : Fin 4) :
    val_main_v17 (F := Ideal) x0 (ix3 b i (0 : Fin 2)) = BitVec.ofNat 32 i.val := by
  unfold val_main_v17
  rw [concatenate_pair_apply_left (2 : Fin 3) (val_main_v15 (F := Ideal)) (val_main_v16 (F := Ideal) x0)
    concatenates_S1024x4x1_S1024x4x1_S1024x4x2_d2 (ix3 b i (0 : Fin 2)) rfl (ix3 b i (0 : Fin 1))
    (fun a => match a with | ⟨0, _⟩ => rfl | ⟨1, _⟩ => rfl | ⟨2, _⟩ => rfl)]
  rw [val_main_v15_apply, val_main_v14_apply, val_main_v8_apply, val_main_v5_apply, val_main_v7_apply,
    val_main_v3_apply, val_main_v4_apply, val_main_c_apply, val_main_v2_apply]
  have hi : (BitVec.ofNat 32 i.val).toNat < 2 ^ 31 := by
    rw [BitVec.toNat_ofNat]; have := i.isLt; omega
  exact normalise_small _ _ hi

/-- Component 1 of the start index at (b, i) is the context index, when that is inside the vocabulary. -/
theorem start1 (x0 : IVec S1024x4 32) (hin : ∀ j, (x0 j).toNat < 8192) (b : Fin 1024) (i : Fin 4) :
    val_main_v17 (F := Ideal) x0 (ix3 b i (1 : Fin 2)) = x0 (ix2 b i) := by
  unfold val_main_v17
  rw [concatenate_pair_apply_right (2 : Fin 3) (val_main_v15 (F := Ideal)) (val_main_v16 (F := Ideal) x0)
    concatenates_S1024x4x1_S1024x4x1_S1024x4x2_d2 (ix3 b i (1 : Fin 2)) rfl rfl (ix3 b i (0 : Fin 1))
    (fun a ha => match a, ha with | ⟨0, _⟩, _ => rfl | ⟨1, _⟩, _ => rfl | ⟨2, _⟩, h => absurd (Fin.ext rfl) h) rfl]
  have e16 : idx_main_v16 (ix3 b i (0 : Fin 1)) = ix2 b i :=
    funext fun a => Fin.ext (by match a with | ⟨0, _⟩ => rfl | ⟨1, _⟩ => rfl)
  rw [val_main_v16_apply, e16, val_main_v13_apply, val_main_v10_apply, val_main_v12_apply, val_main_v9_apply,
    val_main_c_1_apply]
  exact normalise_small _ _ (by have := hin (ix2 b i); omega)

/-! ## The gather: two start components on the collapsed axes 0 and 1, the result's last coordinate on axis 2 -/

/-- The gather's dimension numbers. -/
abbrev gd : GatherDims S4x8192x8192 S1024x4x2 S1024x4x8192 :=
  gather_S4x8192x8192_S1024x4x2_S1024x4x8192_2_01_n_n_01_2_118192

/-- On the slot axis (collapsed, start component 0) the operand coordinate is that component clamped to [0, 3]. -/
theorem opIdx_0 (b : Fin 1024) (i : Fin 4) (o : Fin 8192) (idx : IVec S1024x4x2 32) :
    (gd.operandIdx (ix3 b i o) idx (0 : Fin 3)).val = min (idx (ix3 b i (0 : Fin 2))).toInt.toNat 3 := by
  show gd.start (ix3 b i o) idx (0 : Fin 3) + gd.batchCoord (ix3 b i o) (0 : Fin 3)
    + gd.offCoord (ix3 b i o) (0 : Fin 3) = _
  rw [GatherDims.batchCoord_eq_zero gd (ix3 b i o) (0 : Fin 3) List.not_mem_nil,
    GatherDims.offCoord_eq_zero gd (ix3 b i o) (0 : Fin 3)
      (fun h => ((GatherDims.mem_sKept gd (0 : Fin 3)).mp h).1 (by decide))]
  simp only [Nat.add_zero]
  unfold GatherDims.start
  rw [dif_pos (show (0 : Fin 3) ∈ gd.startIndexMap by decide)]
  have hsi : gd.siIdx (ix3 b i o) ⟨List.idxOf (0 : Fin 3) gd.startIndexMap,
      List.idxOf_lt_length_iff.2 (show (0 : Fin 3) ∈ gd.startIndexMap by decide)⟩ = ix3 b i (0 : Fin 2) := by
    funext c; refine Fin.ext ?_
    match c with
    | ⟨0, _⟩ => rfl
    | ⟨1, _⟩ => rfl
    | ⟨2, _⟩ => rfl
  rw [hsi]
  rfl

/-- On the vocabulary axis (collapsed, start component 1) it is that component clamped to [0, 8191]. -/
theorem opIdx_1 (b : Fin 1024) (i : Fin 4) (o : Fin 8192) (idx : IVec S1024x4x2 32) :
    (gd.operandIdx (ix3 b i o) idx (1 : Fin 3)).val = min (idx (ix3 b i (1 : Fin 2))).toInt.toNat 8191 := by
  show gd.start (ix3 b i o) idx (1 : Fin 3) + gd.batchCoord (ix3 b i o) (1 : Fin 3)
    + gd.offCoord (ix3 b i o) (1 : Fin 3) = _
  rw [GatherDims.batchCoord_eq_zero gd (ix3 b i o) (1 : Fin 3) List.not_mem_nil,
    GatherDims.offCoord_eq_zero gd (ix3 b i o) (1 : Fin 3)
      (fun h => ((GatherDims.mem_sKept gd (1 : Fin 3)).mp h).1 (by decide))]
  simp only [Nat.add_zero]
  unfold GatherDims.start
  rw [dif_pos (show (1 : Fin 3) ∈ gd.startIndexMap by decide)]
  have hsi : gd.siIdx (ix3 b i o) ⟨List.idxOf (1 : Fin 3) gd.startIndexMap,
      List.idxOf_lt_length_iff.2 (show (1 : Fin 3) ∈ gd.startIndexMap by decide)⟩ = ix3 b i (1 : Fin 2) := by
    funext c; refine Fin.ext ?_
    match c with
    | ⟨0, _⟩ => rfl
    | ⟨1, _⟩ => rfl
    | ⟨2, _⟩ => rfl
  rw [hsi]
  rfl

/-- On the output axis (the one offset axis, outside the start index map) it is the result's last coordinate. -/
theorem opIdx_2 (b : Fin 1024) (i : Fin 4) (o : Fin 8192) (idx : IVec S1024x4x2 32) :
    (gd.operandIdx (ix3 b i o) idx (2 : Fin 3)).val = o.val := by
  show gd.start (ix3 b i o) idx (2 : Fin 3) + gd.batchCoord (ix3 b i o) (2 : Fin 3)
    + gd.offCoord (ix3 b i o) (2 : Fin 3) = _
  rw [GatherDims.batchCoord_eq_zero gd (ix3 b i o) (2 : Fin 3) List.not_mem_nil]
  unfold GatherDims.start GatherDims.offCoord
  rw [dif_neg (show ¬ (2 : Fin 3) ∈ gd.startIndexMap by decide),
    dif_pos (show (2 : Fin 3) ∈ gd.sKept by decide)]
  simp only [Nat.add_zero, Nat.zero_add]
  rfl

/-- The operand index the gather reads at (b, i, o): slot i, vocabulary entry ctx[b, i], output o. -/
theorem gather_idx (x0 : IVec S1024x4 32) (hin : ∀ j, (x0 j).toNat < 8192) (b : Fin 1024) (i : Fin 4) (o : Fin 8192) :
    gd.operandIdx (ix3 b i o) (val_main_v17 (F := Ideal) x0)
      = ix3 i (⟨(x0 (ix2 b i)).toNat, hin (ix2 b i)⟩ : Fin 8192) o := by
  funext a
  refine Fin.ext ?_
  have hc := hin (ix2 b i)
  have hi := i.isLt
  match a with
  | ⟨0, _⟩ =>
    refine (opIdx_0 b i o _).trans ?_
    rw [start0]
    refine (clamp_small (BitVec.ofNat 32 i.val) 3 (by rw [BitVec.toNat_ofNat]; omega)
      (by rw [BitVec.toNat_ofNat]; omega)).trans ?_
    show (BitVec.ofNat 32 i.val).toNat = i.val
    rw [BitVec.toNat_ofNat]; omega
  | ⟨1, _⟩ =>
    refine (opIdx_1 b i o _).trans ?_
    rw [start1 x0 hin]
    exact clamp_small (x0 (ix2 b i)) 8191 (by omega) (by omega)
  | ⟨2, _⟩ => exact opIdx_2 b i o _

/-- THE GATHERED ENTRY at (b, i, o): the weight at row o, column i·8192 + ctx[b, i]. -/
theorem gathered_apply (x0 : IVec S1024x4 32) (x1 : FVec Ideal S8192x32768 .f32) (hin : ∀ j, (x0 j).toNat < 8192)
    (b : Fin 1024) (i : Fin 4) (o : Fin 8192) :
    val_main_v18 (F := Ideal) x0 x1 (ix3 b i o) = x1 (ix2 o (Cert.Spec.col i (x0 (ix2 b i)))) := by
  show val_main_v1 (F := Ideal) x1 (gd.operandIdx (ix3 b i o) (val_main_v17 (F := Ideal) x0)) = _
  rw [gather_idx x0 hin b i o, val_main_v1_apply, val_main_v0_apply]
  congr 1
  funext a
  refine Fin.ext ?_
  have hc := hin (ix2 b i)
  have hi := i.isLt
  have ho := o.isLt
  match a with
  | ⟨0, _⟩ =>
    show ((o.val * 4 + i.val) * 8192 + (x0 (ix2 b i)).toNat) / 32768 = o.val
    omega
  | ⟨1, _⟩ =>
    show ((o.val * 4 + i.val) * 8192 + (x0 (ix2 b i)).toNat) % 32768 = i.val * 8192 + (x0 (ix2 b i)).toNat % 8192
    omega

/-- The reference's last stage is the specification `G`, for context indices inside the vocabulary. -/
theorem ref_eq (x0 : IVec S1024x4 32) (x1 : FVec Ideal S8192x32768 .f32) (x2 : FVec Ideal S8192 .f32)
    (hin : ∀ i, (x0 i).toNat < 8192) :
    Cert.ReferenceIdeal.Read.val_main_v22 (F := Ideal) x0 x1 x2 = Cert.Spec.G x0 x1 x2 := by
  funext y
  obtain ⟨b, o, rfl⟩ : ∃ (b : Fin 1024) (o : Fin 8192), y = ix2 b o := ⟨y 0, y 1, eq_ix2 y⟩
  -- the summed entries: the reduce reads the gathered array at (b, k, o)
  have e19 : ∀ k : Fin 4, idx_main_v19 (ix2 b o) k = ix3 b k o := fun k =>
    funext fun a => Fin.ext (by match a with | ⟨0, _⟩ => rfl | ⟨1, _⟩ => rfl | ⟨2, _⟩ => rfl)
  -- the bias: broadcast over the rows, read at o
  have e20 : idx_main_v20 (idx_main_v21 (ix2 b o)) = ix1 o :=
    funext fun a => Fin.ext (by match a with | ⟨0, _⟩ => rfl)
  have hk : ∀ k : Fin 4, val_main_v18 (F := Ideal) x0 x1 (idx_main_v19 (ix2 b o) k)
      = x1 (ix2 o (Cert.Spec.col k (x0 (ix2 b k)))) := fun k => by
    rw [e19 k]; exact gathered_apply x0 x1 hin b k o
  rw [val_main_v22_apply, val_main_v19_apply, val_main_v21_apply, val_main_v20_apply, val_main_cst_apply, e20,
    Finset.sum_congr rfl (fun k _ => hk k)]
  show (Ideal.ofBits .f32 0x00000000#32 + ∑ k : Fin 4, x1 (ix2 o (Cert.Spec.col k (x0 (ix2 b k))))) + x2 (ix1 o) = _
  rw [Ideal.ofBits_zero_f32, zero_add]
  rfl

end Cert.ReferenceIdeal.RefValue

end
-- ==== Proof.lean ====
/-
  A CBOW-style projection: for a batch row `b` and an output column `o`,
      out[b, o] = ∑ over the four context slots i of  W[o, 8192·i + ctx[b, i]]  +  bias[o].

  The reference computes it as written: a gather of one weight row per slot, a sum over the slots, the bias.
  The kernel computes it as a product with one-hot rows, accumulated over a 4 × 4 × 16 grid (output tile, slot,
  chunk of 512 columns): at each point it adds `E · Wᵀ` and then `E · (W − W)ᵀ` for the point's weight block,
  `E` the one-hot matrix of the slot's indices against the chunk's columns, and at the last point of a tile it
  stores the accumulator plus the bias.  Over the extended reals, with every weight a real number, `W − W = 0`
  and the second product vanishes; with every index in `[0, 8192)` each slot's index lies in exactly one chunk,
  where the one-hot row picks exactly its column; so the accumulator ends at the four gathered entries, in some
  order of addition, which for a sum does not matter.  Outside that index range the kernel's one-hot row is zero
  while the reference's gather clamps, which is why the index range is part of the precondition; finiteness of
  the weights is what makes `W − W` vanish.

  Modules: Spec (the function and the arithmetic of one-hot sums), PreFacts (what the precondition says),
  RefValue (the reference is that function), KerPayload / KerPieces / KerBlocks / KerAcc / KerValue (the kernel is
  that function: one point's arithmetic, what each control case leaves, where the blocks sit, the accumulator
  after every point, the final array).  The three frames are the generated ones.
-/
import proofs.«419701_j33122787787244_2_alg».proof.Defs
import proofs.«419701_j33122787787244_2_alg».proof.Proof.Gen.Kernel
import proofs.«419701_j33122787787244_2_alg».proof.Proof.Gen.Kernel.Skeleton
import proofs.«419701_j33122787787244_2_alg».proof.Proof.Gen.Kernel.Launch
import proofs.«419701_j33122787787244_2_alg».proof.Proof.Gen.Kernel.Points
import proofs.«419701_j33122787787244_2_alg».proof.Proof.Gen.Kernel.Frame
import proofs.«419701_j33122787787244_2_alg».proof.Proof.Gen.KernelIdeal
import proofs.«419701_j33122787787244_2_alg».proof.Proof.Gen.KernelIdeal.Skeleton
import proofs.«419701_j33122787787244_2_alg».proof.Proof.Gen.KernelIdeal.Launch
import proofs.«419701_j33122787787244_2_alg».proof.Proof.Gen.KernelIdeal.Points
import proofs.«419701_j33122787787244_2_alg».proof.Proof.Gen.KernelIdeal.Frame
import proofs.«419701_j33122787787244_2_alg».proof.Proof.Gen.ReferenceIdeal
import proofs.«419701_j33122787787244_2_alg».proof.Proof.Gen.ReferenceIdeal.Run
import proofs.«419701_j33122787787244_2_alg».proof.Proof.Gen.ReferenceIdeal.Read
import proofs.«419701_j33122787787244_2_alg».proof.Proof.Gen.Pre_finite_inputs
import proofs.«419701_j33122787787244_2_alg».proof.Proof.KerValue
import proofs.«419701_j33122787787244_2_alg».proof.Proof.RefValue
import proofs.«419701_j33122787787244_2_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: narrowing a weight block to bf16 and widening it back is the identity
    on extended reals (and the rounding through bf16 at the word level). -/
theorem preserves : Cert.preserves_Kernel_KernelIdeal :=
  IdealRules.truncf_extf.statement Cert.KernelIdeal.S2048x512 .f32 .bf16

/-- Both programs end at the specification `G` of the (agreeing) argument arrays. -/
theorem algebraic : Cert.algebraic_KernelIdeal_ReferenceIdeal := by
  intro m ρ m' ρ' hpre hagree
  refine ⟨fun c => Cert.KernelIdeal.KerValue.Gk m c, Cert.KernelIdeal.KerValue.run m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, (hagree c).1, (hagree c).2.1, (hagree c).2.2]
  exact Cert.ReferenceIdeal.RefValue.ref_eq _ _ _ (Cert.PreFacts.of_pre _ _ _ (hpre c)).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
